-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x36x32x4096 : Shape := ⟨4, ![2, 36, 32, 4096]⟩
abbrev S_ : Shape := ⟨0, ![]⟩

class Facts : Prop where
  bcast_S_S2x36x32x4096 : S_.BroadcastsInDim S2x36x32x4096 (![] : Fin 0 → Fin S2x36x32x4096.rank)
  reducesTo_S2x36x32x4096_S_d0_1_2_3 : S2x36x32x4096.ReducesTo [0, 1, 2, 3] S_
  h_S_ : 0 < S_.numel

variable [Facts]

def fn {F : FTy → Type} [FloatOps F] (main_arg0 : FVec F S2x36x32x4096 .f32) (main_arg1 : FVec F S2x36x32x4096 .f32) (main_arg2 : FVec F S2x36x32x4096 .f32) : IVec S_ 1 :=
  let main_v0 : FVec F S2x36x32x4096 .f32 := Host.absf main_arg0
  let main_cst : FVec F S_ .f32 := constant S_ .f32 0x7F800000#32
  let main_v1 : FVec F S2x36x32x4096 .f32 := broadcastInDim S2x36x32x4096 ![] bcast_S_S2x36x32x4096 main_cst
  let main_v2 : IVec S2x36x32x4096 1 := cmpf .olt main_v0 main_v1
  let main_c : IVec S_ 1 := constantI S_ 1 1#1
  let main_v3 : IVec S_ 1 := (fun x v => Host.reduce IntOp.andi x v reducesTo_S2x36x32x4096_S_d0_1_2_3 h_S_) main_v2 main_c
  let main_v4 : FVec F S2x36x32x4096 .f32 := Host.absf main_arg1
  let main_cst_0 : FVec F S_ .f32 := constant S_ .f32 0x7F800000#32
  let main_v5 : FVec F S2x36x32x4096 .f32 := broadcastInDim S2x36x32x4096 ![] bcast_S_S2x36x32x4096 main_cst_0
  let main_v6 : IVec S2x36x32x4096 1 := cmpf .olt main_v4 main_v5
  let main_c_1 : IVec S_ 1 := constantI S_ 1 1#1
  let main_v7 : IVec S_ 1 := (fun x v => Host.reduce IntOp.andi x v reducesTo_S2x36x32x4096_S_d0_1_2_3 h_S_) main_v6 main_c_1
  let main_v8 : IVec S_ 1 := andi main_v3 main_v7
  let main_v9 : FVec F S2x36x32x4096 .f32 := Host.absf main_arg2
  let main_cst_2 : FVec F S_ .f32 := constant S_ .f32 0x7F800000#32
  let main_v10 : FVec F S2x36x32x4096 .f32 := broadcastInDim S2x36x32x4096 ![] bcast_S_S2x36x32x4096 main_cst_2
  let main_v11 : IVec S2x36x32x4096 1 := cmpf .olt main_v9 main_v10
  let main_c_3 : IVec S_ 1 := constantI S_ 1 1#1
  let main_v12 : IVec S_ 1 := (fun x v => Host.reduce IntOp.andi x v reducesTo_S2x36x32x4096_S_d0_1_2_3 h_S_) main_v11 main_c_3
  let main_v13 : IVec S_ 1 := andi main_v8 main_v12
  main_v13
-- ==== Kernel.lean ====
abbrev S2x36x32x4096 : Shape := ⟨4, ![2, 36, 32, 4096]⟩
abbrev S72x32x4096 : Shape := ⟨3, ![72, 32, 4096]⟩
abbrev S1x32x4096 : Shape := ⟨3, ![1, 32, 4096]⟩
abbrev S32x4096 : Shape := ⟨2, ![32, 4096]⟩
abbrev S32x32 : Shape := ⟨2, ![32, 32]⟩
abbrev S32 : Shape := ⟨1, ![32]⟩
abbrev S32x1 : Shape := ⟨2, ![32, 1]⟩
abbrev S4096 : Shape := ⟨1, ![4096]⟩
abbrev S1x4096 : Shape := ⟨2, ![1, 4096]⟩

abbrev nBuf : Space → Nat
  | .hbm => 8
  | .vmem => 8
  | .smem => 0
  | _ => 0

abbrev bufTy : (tb : Table) → Fin (tcTables nBuf tb) → BufTy
  | .hbm, ⟨0, _⟩ => ⟨S2x36x32x4096, .f32⟩
  | .hbm, ⟨1, _⟩ => ⟨S2x36x32x4096, .f32⟩
  | .hbm, ⟨2, _⟩ => ⟨S2x36x32x4096, .f32⟩
  | .hbm, ⟨3, _⟩ => ⟨S72x32x4096, .f32⟩
  | .hbm, ⟨4, _⟩ => ⟨S72x32x4096, .f32⟩
  | .hbm, ⟨5, _⟩ => ⟨S72x32x4096, .f32⟩
  | .hbm, ⟨6, _⟩ => ⟨S72x32x4096, .f32⟩
  | .hbm, ⟨7, _⟩ => ⟨S2x36x32x4096, .f32⟩
  | .local _ .vmem, ⟨0, _⟩ => ⟨S1x32x4096, .f32⟩
  | .local _ .vmem, ⟨1, _⟩ => ⟨S1x32x4096, .f32⟩
  | .local _ .vmem, ⟨2, _⟩ => ⟨S1x32x4096, .f32⟩
  | .local _ .vmem, ⟨3, _⟩ => ⟨S1x32x4096, .f32⟩
  | .local _ .vmem, ⟨4, _⟩ => ⟨S1x32x4096, .f32⟩
  | .local _ .vmem, ⟨5, _⟩ => ⟨S1x32x4096, .f32⟩
  | .local _ .vmem, ⟨6, _⟩ => ⟨S1x32x4096, .f32⟩
  | .local _ .vmem, ⟨7, _⟩ => ⟨S1x32x4096, .f32⟩
  | _, _ => ⟨S2x36x32x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![72], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x36x32x4096_S72x32x4096 : S2x36x32x4096.ShapeCasts S72x32x4096
  inb_S1x32x4096_S1x32x4096_0_0_0 : ∀ a, (![0, 0, 0] : Fin 3 → Nat) a + S1x32x4096.size a ≤ S1x32x4096.size a
  h_S1x32x4096 : 0 < S1x32x4096.numel
  shapeCasts_S1x32x4096_S32x4096 : S1x32x4096.ShapeCasts S32x4096
  bitsLt_bf16_f32 : FTy.bits .bf16 < FTy.bits .f32
  reduces_S32x4096_S32 : S32x4096.Reduces [1] S32
  shapeCasts_S32_S32x1 : S32.ShapeCasts S32x1
  broadcasts_S32x1_S32x4096 : S32x1.Broadcasts S32x4096
  reduces_S32x4096_S4096 : S32x4096.Reduces [0] S4096
  shapeCasts_S4096_S1x4096 : S4096.ShapeCasts S1x4096
  broadcasts_S1x4096_S32x4096 : S1x4096.Broadcasts S32x4096
  shapeCasts_S32x4096_S1x32x4096 : S32x4096.ShapeCasts S1x32x4096
  shapeCasts_S72x32x4096_S2x36x32x4096 : S72x32x4096.ShapeCasts S2x36x32x4096
  dot_S32x4096_S32x4096_S32x32_1_1_0_0_n_n_wf : DotDims.WF S32x4096 S32x4096 S32x32 [1] [1] [0] [0] [] []
  dot_S32x32_S32x4096_S32x4096_1_0_0_1_n_n_wf : DotDims.WF S32x32 S32x4096 S32x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4096.size a ≤ S72x32x4096.size a
  hwx0_0 : ∀ i : grid0.Coords, EltTy.bits .f32 = 32 ∨ (Rect.block (s := S72x32x4096) S1x32x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4096.size a ≤ S72x32x4096.size a
  hwx0_1 : ∀ i : grid0.Coords, EltTy.bits .f32 = 32 ∨ (Rect.block (s := S72x32x4096) S1x32x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x4096.size a ≤ S72x32x4096.size a
  hwx0_2 : ∀ i : grid0.Coords, EltTy.bits .f32 = 32 ∨ (Rect.block (s := S72x32x4096) S1x32x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x4096.size a ≤ S72x32x4096.size a
  hwx0_3 : ∀ i : grid0.Coords, EltTy.bits .f32 = 32 ∨ (Rect.block (s := S72x32x4096) S1x32x4096.size (cc0_transform_3 i) (hinb0_3 i)).WholeWords (EltTy.packing .f32)

variable [Facts₀]

def dot_S32x4096_S32x4096_S32x32_1_1_0_0_n_n : DotDims S32x4096 S32x4096 S32x32 where
  lhsContracting := [1]
  rhsContracting := [1]
  lhsNonContracting := [0]
  rhsNonContracting := [0]
  lhsBatch := []
  rhsBatch := []
  wf := dot_S32x4096_S32x4096_S32x32_1_1_0_0_n_n_wf
def dot_S32x32_S32x4096_S32x4096_1_0_0_1_n_n : DotDims S32x32 S32x4096 S32x4096 where
  lhsContracting := [1]
  rhsContracting := [0]
  lhsNonContracting := [0]
  rhsNonContracting := [1]
  lhsBatch := []
  rhsBatch := []
  wf := dot_S32x32_S32x4096_S32x4096_1_0_0_1_n_n_wf

abbrev win0_0 : Pipeline.Window sig grid0 :=
  Pipeline.Window.ofSpec (Memref.whole main_v0) S1x32x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x32x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x32x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x32x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x36x32x4096 : Shape := ⟨4, ![2, 36, 32, 4096]⟩
abbrev S_ : Shape := ⟨0, ![]⟩
abbrev S2x36x33x4096 : Shape := ⟨4, ![2, 36, 33, 4096]⟩
abbrev S2x36x33x32 : Shape := ⟨4, ![2, 36, 33, 32]⟩
abbrev S2x36x1x4096 : Shape := ⟨4, ![2, 36, 1, 4096]⟩

abbrev nBuf : Space → Nat
  | .hbm => 15
  | .vmem => 0
  | .smem => 0
  | _ => 0

abbrev bufTy : (tb : Table) → Fin (tcTables nBuf tb) → BufTy
  | .hbm, ⟨0, _⟩ => ⟨S2x36x32x4096, .f32⟩
  | .hbm, ⟨1, _⟩ => ⟨S2x36x32x4096, .f32⟩
  | .hbm, ⟨2, _⟩ => ⟨S2x36x32x4096, .f32⟩
  | .hbm, ⟨3, _⟩ => ⟨S_, .f32⟩
  | .hbm, ⟨4, _⟩ => ⟨S_, .f32⟩
  | .hbm, ⟨5, _⟩ => ⟨S2x36x33x4096, .f32⟩
  | .hbm, ⟨6, _⟩ => ⟨S2x36x33x32, .f32⟩
  | .hbm, ⟨7, _⟩ => ⟨S2x36x33x4096, .f32⟩
  | .hbm, ⟨8, _⟩ => ⟨S2x36x32x4096, .f32⟩
  | .hbm, ⟨9, _⟩ => ⟨S2x36x1x4096, .f32⟩
  | .hbm, ⟨10, _⟩ => ⟨S_, .f32⟩
  | .hbm, ⟨11, _⟩ => ⟨S2x36x1x4096, .f32⟩
  | .hbm, ⟨12, _⟩ => ⟨S2x36x1x4096, .f32⟩
  | .hbm, ⟨13, _⟩ => ⟨S2x36x32x4096, .f32⟩
  | .hbm, ⟨14, _⟩ => ⟨S2x36x32x4096, .f32⟩
  | _, _ => ⟨S2x36x32x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  pads_S2x36x32x4096_S2x36x33x4096_000_000_010_000 : S2x36x32x4096.Pads (![0, 0, 0, 0] : Fin 4 → Nat) ![0, 0, 1, 0] ![0, 0, 0, 0] S2x36x33x4096
  h_S_ : 0 < S_.numel
  slices_S2x36x33x4096_S2x36x32x4096_0_0_0_0 : S2x36x33x4096.Slices ![0, 0, 0, 0] S2x36x32x4096
  slices_S2x36x33x4096_S2x36x1x4096_0_0_32_0 : S2x36x33x4096.Slices ![0, 0, 32, 0] S2x36x1x4096
  bcast_S_S2x36x1x4096 : S_.BroadcastsInDim S2x36x1x4096 (![] : Fin 0 → Fin S2x36x1x4096.rank)
  bcast_S2x36x1x4096_S2x36x32x4096_0_1_2_3 : S2x36x1x4096.BroadcastsInDim S2x36x32x4096 (![0, 1, 2, 3] : Fin 4 → Fin S2x36x32x4096.rank)
  dot_S2x36x33x4096_S2x36x32x4096_S2x36x33x32_3_3_2_2_01_01_wf : DotDims.WF S2x36x33x4096 S2x36x32x4096 S2x36x33x32 [3] [3] [2] [2] [0, 1] [0, 1]
  dot_S2x36x33x32_S2x36x32x4096_S2x36x33x4096_3_2_2_3_01_01_wf : DotDims.WF S2x36x33x32 S2x36x32x4096 S2x36x33x4096 [3] [2] [2] [3] [0, 1] [0, 1]

variable [Facts₀]

def dot_S2x36x33x4096_S2x36x32x4096_S2x36x33x32_3_3_2_2_01_01 : DotDims S2x36x33x4096 S2x36x32x4096 S2x36x33x32 where
  lhsContracting := [3]
  rhsContracting := [3]
  lhsNonContracting := [2]
  rhsNonContracting := [2]
  lhsBatch := [0, 1]
  rhsBatch := [0, 1]
  wf := dot_S2x36x33x4096_S2x36x32x4096_S2x36x33x32_3_3_2_2_01_01_wf
def dot_S2x36x33x32_S2x36x32x4096_S2x36x33x4096_3_2_2_3_01_01 : DotDims S2x36x33x32 S2x36x32x4096 S2x36x33x4096 where
  lhsContracting := [3]
  rhsContracting := [2]
  lhsNonContracting := [2]
  rhsNonContracting := [3]
  lhsBatch := [0, 1]
  rhsBatch := [0, 1]
  wf := dot_S2x36x33x32_S2x36x32x4096_S2x36x33x4096_3_2_2_3_01_01_wf

class Facts : Prop extends Facts₀ where

variable [Facts]
-- ==== Proof.Spec.lean ====
/-
  Linear attention with a running normaliser, as one function of the three argument arrays.

  For one head, with rows `q e`, `k e`, `v d` (feature index `e, d : Fin 32`, token index `n : Fin 4096`):
    score d e   = ∑ n', v d n' * k e n'          -- value rows against key rows, contracted over the tokens
    ksum e      = ∑ n', k e n'                   -- what a row of ones in place of a value row would give
    out d n     = (∑ e, score d e * q e n) / ((∑ e, ksum e * q e n) + ε)
  The kernel computes exactly this per head; the reference appends a row of ones to the values, forms the same
  two products for 33 rows and divides the first 32 by the last, which is `out` once `1 * x = x` is used in the
  ones row. No sum is regrouped and no factor is moved across a sum, so the identity holds on the extended reals
  without any finiteness.
-/
import Idealize.ShloMosaic.PureOps.Ideal
import Idealize.ShloMosaic.Lib.ValueIdx

noncomputable section

open scoped BigOperators
open Idealize.ShloMosaic Idealize.ShloMosaic.ValueIdx

namespace Cert.LinAttn

/-- The regulariser added to the normaliser: the one f32 word both programs carry, read at the extended reals. -/
def eps : EReal := Ideal.ofBits .f32 0x26901D7D#32

/-- One head's output at feature `d` and token `n`, from the head's query, key and value rows. -/
def head (q k v : Fin 32 → Fin 4096 → EReal) (d : Fin 32) (n : Fin 4096) : EReal :=
  Ideal.div (∑ e : Fin 32, (∑ n' : Fin 4096, v d n' * k e n') * q e n)
    ((∑ e : Fin 32, (∑ n' : Fin 4096, k e n') * q e n) + eps)

/-- The whole result over [batch, heads, features, tokens]: head `(b, h)` of the three arrays. -/
def attn4 (Q K V : FVec Ideal ⟨4, ![2, 36, 32, 4096]⟩ .f32) : FVec Ideal ⟨4, ![2, 36, 32, 4096]⟩ .f32 := fun i =>
  head (fun e n => Q (ix4 (i 0) (i 1) e n)) (fun e n => K (ix4 (i 0) (i 1) e n)) (fun d n => V (ix4 (i 0) (i 1) d n)) (i 2) (i 3)

/-- The same with batch and heads flattened to one axis of 72 heads. -/
def attn3 (Q K V : FVec Ideal ⟨3, ![72, 32, 4096]⟩ .f32) : FVec Ideal ⟨3, ![72, 32, 4096]⟩ .f32 := fun i =>
  head (fun e n => Q (ix3 (i 0) e n)) (fun e n => K (ix3 (i 0) e n)) (fun d n => V (ix3 (i 0) d n)) (i 1) (i 2)

/-- One head's block [1, features, tokens]. -/
def attnBlock (q k v : FVec Ideal ⟨3, ![1, 32, 4096]⟩ .f32) : FVec Ideal ⟨3, ![1, 32, 4096]⟩ .f32 := fun i =>
  head (fun e n => q (ix3 (0 : Fin 1) e n)) (fun e n => k (ix3 (0 : Fin 1) e n)) (fun d n => v (ix3 (0 : Fin 1) d n)) (i 1) (i 2)

end Cert.LinAttn

end
-- ==== Proof.RefValue.lean ====
/-
  The reference computes `attn4`.

  The reference pads the values with a 33rd feature row of ones, contracts the padded values against the keys over
  the tokens (33 × 32 scores per head), contracts the scores against the queries over the features (33 × 4096 per
  head), and divides rows 0..31 by row 32 plus ε. Row `d < 32` of the padded values is the value row `d`, so rows
  0..31 of the second product are the numerator of `head`; row 32 is all ones, so its scores are `∑ n', 1 * k e n'`,
  the key sums, and row 32 of the second product is the normaliser of `head`.
-/
import proofs.«180149_j45208825758214_1_alg».proof.Proof.Gen.ReferenceIdeal.Read
import proofs.«180149_j45208825758214_1_alg».proof.Proof.Spec
import Idealize.ShloMosaic.Lib.IdealHost

noncomputable section

open scoped BigOperators
open Idealize.ShloMosaic Idealize.ShloMosaic.ValueIdx

namespace Cert.LinAttn.Ref

open Cert.ReferenceIdeal Cert.ReferenceIdeal.Gen Cert.ReferenceIdeal.Read

/-- A value row below the padding is read through: the padded array at feature row `d < 32` is the value array there. -/
theorem padded_value (x2 : FVec Ideal S2x36x32x4096 .f32) (b : Fin 2) (h : Fin 36) (d : Fin 32) (n : Fin 4096) :
    val_main_v0 (F := Ideal) x2 (ix4 b h (⟨d.val, by omega⟩ : Fin 33) n) = x2 (ix4 b h d n) := by
  unfold val_main_v0 pad
  have hin : ∀ a : Fin S2x36x32x4096.rank, (![0, 0, 0, 0] : Fin 4 → Nat) a ≤ ((ix4 b h (⟨d.val, by omega⟩ : Fin 33) n : S2x36x33x4096.Idx) (a.cast pads_S2x36x32x4096_S2x36x33x4096_000_000_010_000.1)).val
      ∧ (((ix4 b h (⟨d.val, by omega⟩ : Fin 33) n : S2x36x33x4096.Idx) (a.cast pads_S2x36x32x4096_S2x36x33x4096_000_000_010_000.1)).val - (![0, 0, 0, 0] : Fin 4 → Nat) a) % ((![0, 0, 0, 0] : Fin 4 → Nat) a + 1) = 0
      ∧ (((ix4 b h (⟨d.val, by omega⟩ : Fin 33) n : S2x36x33x4096.Idx) (a.cast pads_S2x36x32x4096_S2x36x33x4096_000_000_010_000.1)).val - (![0, 0, 0, 0] : Fin 4 → Nat) a) / ((![0, 0, 0, 0] : Fin 4 → Nat) a + 1) < S2x36x32x4096.size a := by
    intro a
    match a with
    | ⟨0, _⟩ => exact ⟨Nat.zero_le _, Nat.mod_one _, by show (b.val - 0) / 1 < 2; have := b.isLt; omega⟩
    | ⟨1, _⟩ => exact ⟨Nat.zero_le _, Nat.mod_one _, by show (h.val - 0) / 1 < 36; have := h.isLt; omega⟩
    | ⟨2, _⟩ => exact ⟨Nat.zero_le _, Nat.mod_one _, by show (d.val - 0) / 1 < 32; have := d.isLt; omega⟩
    | ⟨3, _⟩ => exact ⟨Nat.zero_le _, Nat.mod_one _, by show (n.val - 0) / 1 < 4096; have := n.isLt; omega⟩
  rw [dif_pos hin]
  refine congrArg x2 (funext fun a => Fin.ext ?_)
  match a with
  | ⟨0, _⟩ => show (b.val - 0) / 1 = b.val; omega
  | ⟨1, _⟩ => show (h.val - 0) / 1 = h.val; omega
  | ⟨2, _⟩ => show (d.val - 0) / 1 = d.val; omega
  | ⟨3, _⟩ => show (n.val - 0) / 1 = n.val; omega

/-- The appended row: the padded array at feature row 32 is the padding value, the real number one. -/
theorem padded_one (x2 : FVec Ideal S2x36x32x4096 .f32) (b : Fin 2) (h : Fin 36) (n : Fin 4096) :
    val_main_v0 (F := Ideal) x2 (ix4 b h (⟨32, by omega⟩ : Fin 33) n) = 1 := by
  unfold val_main_v0 pad
  rw [dif_neg (fun hin => by
    have h2 := (hin (2 : Fin 4)).2.2
    have h2' : (32 - 0) / 1 < 32 := h2
    omega)]
  exact Ideal.ofBits_one_f32

/-- A score of the reference at padded row `r` and key row `e`: the padded values against the keys over the tokens. -/
theorem scores_row (x1 x2 : FVec Ideal S2x36x32x4096 .f32) (b : Fin 2) (h : Fin 36) (r : Fin 33) (e : Fin 32) :
    val_main_v1 (F := Ideal) x1 x2 (ix4 b h r e)
      = ∑ n' : Fin 4096, val_main_v0 (F := Ideal) x2 (ix4 b h r n') * x1 (ix4 b h e n') := by
  rw [val_main_v1_apply]
  refine Finset.sum_congr rfl fun k _ => ?_
  have el : lidx_main_v1 (ix4 b h r e) k = ix4 b h r k := funext fun a => Fin.ext (by
    match a with | ⟨0, _⟩ => rfl | ⟨1, _⟩ => rfl | ⟨2, _⟩ => rfl | ⟨3, _⟩ => rfl)
  have er : ridx_main_v1 (ix4 b h r e) k = ix4 b h e k := funext fun a => Fin.ext (by
    match a with | ⟨0, _⟩ => rfl | ⟨1, _⟩ => rfl | ⟨2, _⟩ => rfl | ⟨3, _⟩ => rfl)
  rw [el, er]

/-- The reference's second product at padded row `r` and token `n`: the scores against the queries over the features. -/
theorem hidden_row (x0 x1 x2 : FVec Ideal S2x36x32x4096 .f32) (b : Fin 2) (h : Fin 36) (r : Fin 33) (n : Fin 4096) :
    val_main_v2 (F := Ideal) x0 x1 x2 (ix4 b h r n)
      = ∑ e : Fin 32, val_main_v1 (F := Ideal) x1 x2 (ix4 b h r e) * x0 (ix4 b h e n) := by
  rw [val_main_v2_apply]
  refine Finset.sum_congr rfl fun k _ => ?_
  have el : lidx_main_v2 (ix4 b h r n) k = ix4 b h r k := funext fun a => Fin.ext (by
    match a with | ⟨0, _⟩ => rfl | ⟨1, _⟩ => rfl | ⟨2, _⟩ => rfl | ⟨3, _⟩ => rfl)
  have er : ridx_main_v2 (ix4 b h r n) k = ix4 b h k n := funext fun a => Fin.ext (by
    match a with | ⟨0, _⟩ => rfl | ⟨1, _⟩ => rfl | ⟨2, _⟩ => rfl | ⟨3, _⟩ => rfl)
  rw [el, er]

/-- The reference's result is `attn4` of its three arguments: rows below the padding give the numerator, the row of
    ones the normaliser (`1 * x = x` on the extended reals). -/
theorem result_eq (x0 x1 x2 : FVec Ideal S2x36x32x4096 .f32) :
    val_main_v8 (F := Ideal) x0 x1 x2 = attn4 x0 x1 x2 := by
  funext i
  obtain ⟨b, h, d, n, rfl⟩ : ∃ (b : Fin 2) (h : Fin 36) (d : Fin 32) (n : Fin 4096), i = ix4 b h d n :=
    ⟨i 0, i 1, i 2, i 3, eq_ix4 i⟩
  have e3 : idx_main_v3 (ix4 b h d n) = ix4 b h (⟨d.val, by omega⟩ : Fin 33) n := funext fun a => Fin.ext (by
    match a with | ⟨0, _⟩ => rfl | ⟨1, _⟩ => rfl | ⟨2, _⟩ => rfl | ⟨3, _⟩ => rfl)
  have e4 : idx_main_v4 (idx_main_v7 (ix4 b h d n)) = ix4 b h (⟨32, by omega⟩ : Fin 33) n := funext fun a => Fin.ext (by
    match a with | ⟨0, _⟩ => rfl | ⟨1, _⟩ => rfl | ⟨2, _⟩ => rfl | ⟨3, _⟩ => rfl)
  rw [val_main_v8_apply, val_main_v3_apply, val_main_v7_apply, val_main_v6_apply, val_main_v4_apply, val_main_v5_apply,
    val_main_cst_0_apply, e3, e4, hidden_row, hidden_row]
  simp only [scores_row, padded_value, padded_one, one_mul]
  rfl

end Cert.LinAttn.Ref

end
-- ==== Proof.KernelOps.lean ====
/-
  The kernel body's operations that are not pointwise, each read at one index at the extended reals.

  The first product contracts the token axis of BOTH operands (value rows against key rows): at (d, e) it is
  `∑ n', a (d, n') * b (e, n')`. The second is an ordinary matrix product: at (d, n) it is `∑ e, s (d, e) * x (e, n)`.
  The two lane sums are a row's sum over the tokens and a column's sum over the features. The remaining operations
  move a vector of 32 row sums into a column and stretch a column, or a row, over the [32, 4096] block.
-/
import proofs.«180149_j45208825758214_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.LinAttn.Kernel

open Cert.KernelIdeal Cert.KernelIdeal.Gen

/-! ## The first product: both operands contracted over their token axis -/

theorem lhs_scores_0 (i : S32x32.Idx) (q : dot_S32x4096_S32x4096_S32x32_1_1_0_0_n_n.contr.Idx) :
    (dot_S32x4096_S32x4096_S32x32_1_1_0_0_n_n.lhsIdx i q 0).val = (i 0).val := by
  unfold DotDims.lhsIdx
  rw [dif_neg (show ¬(0 : Fin S32x4096.rank) ∈ dot_S32x4096_S32x4096_S32x32_1_1_0_0_n_n.lhsBatch by decide), dif_pos (show (0 : Fin S32x4096.rank) ∈ dot_S32x4096_S32x4096_S32x32_1_1_0_0_n_n.lhsNonContracting by decide)]
  rfl
theorem lhs_scores_1 (i : S32x32.Idx) (q : dot_S32x4096_S32x4096_S32x32_1_1_0_0_n_n.contr.Idx) :
    (dot_S32x4096_S32x4096_S32x32_1_1_0_0_n_n.lhsIdx i q 1).val = (q ⟨0, by decide⟩).val :=
  dot_S32x4096_S32x4096_S32x32_1_1_0_0_n_n.lhsIdx_val_of_single rfl i q
theorem rhs_scores_0 (i : S32x32.Idx) (q : dot_S32x4096_S32x4096_S32x32_1_1_0_0_n_n.contr.Idx) :
    (dot_S32x4096_S32x4096_S32x32_1_1_0_0_n_n.rhsIdx i q 0).val = (i 1).val := by
  unfold DotDims.rhsIdx
  rw [dif_neg (show ¬(0 : Fin S32x4096.rank) ∈ dot_S32x4096_S32x4096_S32x32_1_1_0_0_n_n.rhsBatch by decide), dif_pos (show (0 : Fin S32x4096.rank) ∈ dot_S32x4096_S32x4096_S32x32_1_1_0_0_n_n.rhsNonContracting by decide)]
  rfl
theorem rhs_scores_1 (i : S32x32.Idx) (q : dot_S32x4096_S32x4096_S32x32_1_1_0_0_n_n.contr.Idx) :
    (dot_S32x4096_S32x4096_S32x32_1_1_0_0_n_n.rhsIdx i q 1).val = (q ⟨0, by decide⟩).val :=
  dot_S32x4096_S32x4096_S32x32_1_1_0_0_n_n.rhsIdx_val_of_single rfl i q

/-- Row `d` of the left operand against row `e` of the right, summed over the tokens. -/
theorem scores_apply (a b : FVec Ideal S32x4096 .bf16) (d e : Fin 32) :
    matmul dot_S32x4096_S32x4096_S32x32_1_1_0_0_n_n none a b (constant S32x32 .f32 0x00000000#32) (ix2 d e)
      = ∑ n' : Fin 4096, a (ix2 d n') * b (ix2 e n') := by
  simp only [matmul]
  rw [Ideal.matmul_constant_zero_apply, ← Equiv.sum_comp (contrEquiv1 dot_S32x4096_S32x4096_S32x32_1_1_0_0_n_n 4096 rfl rfl).symm]
  refine Finset.sum_congr rfl fun k _ => ?_
  have hk := contrEquiv1_symm_val dot_S32x4096_S32x4096_S32x32_1_1_0_0_n_n 4096 rfl rfl k
  have el : dot_S32x4096_S32x4096_S32x32_1_1_0_0_n_n.lhsIdx (ix2 d e) ((contrEquiv1 dot_S32x4096_S32x4096_S32x32_1_1_0_0_n_n 4096 rfl rfl).symm k) = ix2 d k := funext fun a => Fin.ext (by
    match a with
    | ⟨0, _⟩ => exact lhs_scores_0 _ _
    | ⟨1, _⟩ => exact (lhs_scores_1 _ _).trans hk)
  have er : dot_S32x4096_S32x4096_S32x32_1_1_0_0_n_n.rhsIdx (ix2 d e) ((contrEquiv1 dot_S32x4096_S32x4096_S32x32_1_1_0_0_n_n 4096 rfl rfl).symm k) = ix2 e k := funext fun a => Fin.ext (by
    match a with
    | ⟨0, _⟩ => exact rhs_scores_0 _ _
    | ⟨1, _⟩ => exact (rhs_scores_1 _ _).trans hk)
  rw [el, er]

/-! ## The second product: scores against the query rows -/

theorem lhs_hidden_0 (i : S32x4096.Idx) (q : dot_S32x32_S32x4096_S32x4096_1_0_0_1_n_n.contr.Idx) :
    (dot_S32x32_S32x4096_S32x4096_1_0_0_1_n_n.lhsIdx i q 0).val = (i 0).val := by
  unfold DotDims.lhsIdx
  rw [dif_neg (show ¬(0 : Fin S32x32.rank) ∈ dot_S32x32_S32x4096_S32x4096_1_0_0_1_n_n.lhsBatch by decide), dif_pos (show (0 : Fin S32x32.rank) ∈ dot_S32x32_S32x4096_S32x4096_1_0_0_1_n_n.lhsNonContracting by decide)]
  rfl
theorem lhs_hidden_1 (i : S32x4096.Idx) (q : dot_S32x32_S32x4096_S32x4096_1_0_0_1_n_n.contr.Idx) :
    (dot_S32x32_S32x4096_S32x4096_1_0_0_1_n_n.lhsIdx i q 1).val = (q ⟨0, by decide⟩).val :=
  dot_S32x32_S32x4096_S32x4096_1_0_0_1_n_n.lhsIdx_val_of_single rfl i q
theorem rhs_hidden_0 (i : S32x4096.Idx) (q : dot_S32x32_S32x4096_S32x4096_1_0_0_1_n_n.contr.Idx) :
    (dot_S32x32_S32x4096_S32x4096_1_0_0_1_n_n.rhsIdx i q 0).val = (q ⟨0, by decide⟩).val :=
  dot_S32x32_S32x4096_S32x4096_1_0_0_1_n_n.rhsIdx_val_of_single rfl i q
theorem rhs_hidden_1 (i : S32x4096.Idx) (q : dot_S32x32_S32x4096_S32x4096_1_0_0_1_n_n.contr.Idx) :
    (dot_S32x32_S32x4096_S32x4096_1_0_0_1_n_n.rhsIdx i q 1).val = (i 1).val := by
  unfold DotDims.rhsIdx
  rw [dif_neg (show ¬(1 : Fin S32x4096.rank) ∈ dot_S32x32_S32x4096_S32x4096_1_0_0_1_n_n.rhsBatch by decide), dif_pos (show (1 : Fin S32x4096.rank) ∈ dot_S32x32_S32x4096_S32x4096_1_0_0_1_n_n.rhsNonContracting by decide)]
  rfl

/-- Row `d` of the scores against column `n` of the right operand, summed over the features. -/
theorem hidden_apply (s : FVec Ideal S32x32 .bf16) (x : FVec Ideal S32x4096 .bf16) (d : Fin 32) (n : Fin 4096) :
    matmul dot_S32x32_S32x4096_S32x4096_1_0_0_1_n_n none s x (constant S32x4096 .f32 0x00000000#32) (ix2 d n)
      = ∑ e : Fin 32, s (ix2 d e) * x (ix2 e n) := by
  simp only [matmul]
  rw [Ideal.matmul_constant_zero_apply, ← Equiv.sum_comp (contrEquiv1 dot_S32x32_S32x4096_S32x4096_1_0_0_1_n_n 32 rfl rfl).symm]
  refine Finset.sum_congr rfl fun k _ => ?_
  have hk := contrEquiv1_symm_val dot_S32x32_S32x4096_S32x4096_1_0_0_1_n_n 32 rfl rfl k
  have el : dot_S32x32_S32x4096_S32x4096_1_0_0_1_n_n.lhsIdx (ix2 d n) ((contrEquiv1 dot_S32x32_S32x4096_S32x4096_1_0_0_1_n_n 32 rfl rfl).symm k) = ix2 d k := funext fun a => Fin.ext (by
    match a with
    | ⟨0, _⟩ => exact lhs_hidden_0 _ _
    | ⟨1, _⟩ => exact (lhs_hidden_1 _ _).trans hk)
  have er : dot_S32x32_S32x4096_S32x4096_1_0_0_1_n_n.rhsIdx (ix2 d n) ((contrEquiv1 dot_S32x32_S32x4096_S32x4096_1_0_0_1_n_n 32 rfl rfl).symm k) = ix2 k n := funext fun a => Fin.ext (by
    match a with
    | ⟨0, _⟩ => exact (rhs_hidden_0 _ _).trans hk
    | ⟨1, _⟩ => exact rhs_hidden_1 _ _)
  rw [el, er]

/-! ## The two lane sums -/

/-- A row's sum over the tokens. -/
theorem rowsum_apply (x : FVec Ideal S32x4096 .f32) (e : Fin 32) (hr : S32x4096.Reduces [1] S32) (hφ : FTy.f32 = FTy.f32 ∨ FTy.f32 = FTy.bf16)
    (hacc : (0x00000000#32 : BitVec 32) = 0x00000000#32) :
    multiReduction (F := Ideal) .add [1] S32 x 0x00000000#32 hr hφ hacc (ix1 e)
      = ∑ n' : Fin 4096, x (ix2 e n') := by
  refine (Ideal.multiReduction_add_single x 0x00000000#32 hr hφ hacc (ix1 e)).trans ?_
  refine Finset.sum_congr rfl fun k _ => congrArg x (funext fun a => Fin.ext ?_)
  match a with
  | ⟨0, _⟩ => rfl
  | ⟨1, _⟩ => rfl

/-- A column's sum over the features. -/
theorem colsum_apply (x : FVec Ideal S32x4096 .f32) (n : Fin 4096) (hr : S32x4096.Reduces [0] S4096) (hφ : FTy.f32 = FTy.f32 ∨ FTy.f32 = FTy.bf16)
    (hacc : (0x00000000#32 : BitVec 32) = 0x00000000#32) :
    multiReduction (F := Ideal) .add [0] S4096 x 0x00000000#32 hr hφ hacc (ix1 n)
      = ∑ e : Fin 32, x (ix2 e n) := by
  refine (Ideal.multiReduction_add_single x 0x00000000#32 hr hφ hacc (ix1 n)).trans ?_
  refine Finset.sum_congr rfl fun k _ => congrArg x (funext fun a => Fin.ext ?_)
  match a with
  | ⟨0, _⟩ => rfl
  | ⟨1, _⟩ => rfl

/-! ## A vector as a column, and a column or a row stretched over the block -/

/-- A vector of 32 entries laid out as a [32, 1] column reads entry `e` in row `e`. -/
theorem column_apply (x : FVec Ideal S32 .f32) (e : Fin 32) (z : Fin 1) :
    shapeCast S32x1 x shapeCasts_S32_S32x1 (ix2 e z) = x (ix1 e) :=
  shapeCast_apply x _ _ _ (by
    have hz : z.val = 0 := by omega
    rw [Shape.rowMajor_val_one, Shape.rowMajor_val_two]
    show e.val = e.val * 1 + z.val
    omega)

/-- A [32, 1] column stretched over [32, 4096] reads its row's entry at every token. -/
theorem stretch_column_apply (x : FVec Ideal S32x1 .f32) (e : Fin 32) (n : Fin 4096) :
    broadcastTo S32x4096 x broadcasts_S32x1_S32x4096 (ix2 e n) = x (ix2 e (0 : Fin 1)) :=
  broadcastTo_apply x _ _ _ fun a => by
    match a with
    | ⟨0, _⟩ => show e.val = if (32 : Nat) = 1 then 0 else e.val; rw [if_neg (by decide)]
    | ⟨1, _⟩ => show 0 = if (1 : Nat) = 1 then 0 else n.val; rw [if_pos rfl]

/-- A [1, 4096] row stretched over [32, 4096] reads its token's entry in every row. -/
theorem stretch_row_apply (x : FVec Ideal S1x4096 .f32) (d : Fin 32) (n : Fin 4096) :
    broadcastTo S32x4096 x broadcasts_S1x4096_S32x4096 (ix2 d n) = x (ix2 (0 : Fin 1) n) :=
  broadcastTo_apply x _ _ _ fun a => by
    match a with
    | ⟨0, _⟩ => show 0 = if (1 : Nat) = 1 then 0 else d.val; rw [if_pos rfl]
    | ⟨1, _⟩ => show n.val = if (4096 : Nat) = 1 then 0 else n.val; rw [if_neg (by decide)]

end Cert.LinAttn.Kernel

end
-- ==== Proof.Payload.lean ====
/-
  What the kernel body stores for one head is `attnBlock` of the three blocks it loads.

  The body drops each block's leading unit axis, forms the scores (value rows against key rows over the tokens), the
  key row sums, the second product (scores against query rows), and the normaliser: each key row sum times the
  query row, summed over the features, plus ε; it divides and puts the unit axis back. At the extended reals the
  changes of float format are the identity, so reading the stored value at (·, d, n) operation by operation gives
  `head` of the blocks' rows.
-/
import proofs.«180149_j45208825758214_1_alg».proof.Proof.Gen.KernelIdeal.Skeleton
import proofs.«180149_j45208825758214_1_alg».proof.Proof.KernelOps
import proofs.«180149_j45208825758214_1_alg».proof.Proof.Spec

noncomputable section

open scoped BigOperators
open Idealize.ShloMosaic Idealize.ShloMosaic.ValueIdx

namespace Cert.LinAttn.Kernel

open Cert.KernelIdeal Cert.KernelIdeal.Gen

/-- The body's stored value, from the query, key and value blocks it loaded. -/
theorem payload_eq (q k v : Vec Ideal S1x32x4096 .f32) : k0_pay1 (F := Ideal) q k v = attnBlock q k v := by
  funext j
  obtain ⟨u, d, n, rfl⟩ : ∃ (u : Fin 1) (d : Fin 32) (n : Fin 4096), j = ix3 u d n := ⟨j 0, j 1, j 2, eq_ix3 j⟩
  unfold k0_pay1
  simp only [shapeCast_ab_1ab_apply, divf_apply, hidden_apply, truncf_apply, scores_apply, shapeCast_1ab_ab_apply,
    stretch_row_apply, addf_apply, shapeCast_a_1a_apply, broadcast_apply]
  rw [colsum_apply]
  -- the numerator is `head`'s already; in the normaliser, column `n` of (key row sums) × (query rows)
  refine congrArg (Ideal.div _) (congrArg (· + _) (Finset.sum_congr rfl fun e _ => ?_))
  rw [mulf_apply, stretch_column_apply, column_apply, rowsum_apply, shapeCast_1ab_ab_apply]
  simp only [shapeCast_1ab_ab_apply]

end Cert.LinAttn.Kernel

end
-- ==== Proof.Reshape.lean ====
/-
  The three layouts of the same numbers: one head's block [1, 32, 4096], the 72 heads [72, 32, 4096], and
  [2, 36, 32, 4096] with head `36 b + h` at `(b, h)`.

  `head` only looks at the rows of one head, so if three blocks hold the rows of head `T` of three [72, 32, 4096]
  arrays, `attnBlock` of the blocks is `attn3` of the arrays at head `T`; and if the [72, 32, 4096] arrays are the
  row-major re-readings of three [2, 36, 32, 4096] arrays, `attn3` at head `36 b + h` is `attn4` at `(b, h)`.
-/
import proofs.«180149_j45208825758214_1_alg».proof.Proof.Spec
import Idealize.ShloMosaic.Lib.Pipeline.Value

noncomputable section

open scoped BigOperators
open Idealize.ShloMosaic Idealize.ShloMosaic.ValueIdx

namespace Cert.LinAttn

/-- Blocks that hold the rows of head `T` give that head's output. -/
theorem attnBlock_eq_attn3 (q k v : FVec Ideal ⟨3, ![1, 32, 4096]⟩ .f32) (Q K V : FVec Ideal ⟨3, ![72, 32, 4096]⟩ .f32) (T : Fin 72)
    (hq : ∀ (e : Fin 32) (n : Fin 4096), q (ix3 (0 : Fin 1) e n) = Q (ix3 T e n))
    (hk : ∀ (e : Fin 32) (n : Fin 4096), k (ix3 (0 : Fin 1) e n) = K (ix3 T e n))
    (hv : ∀ (e : Fin 32) (n : Fin 4096), v (ix3 (0 : Fin 1) e n) = V (ix3 T e n))
    (u : Fin 1) (d : Fin 32) (n : Fin 4096) :
    attnBlock q k v (ix3 u d n) = attn3 Q K V (ix3 T d n) := by
  unfold attnBlock attn3
  simp only [hq, hk, hv]

/-- The same at any two indices whose feature and token coordinates agree, the blocks holding the rows of the head the
    second index names. -/
theorem attnBlock_eq_attn3_at (q k v : FVec Ideal ⟨3, ![1, 32, 4096]⟩ .f32) (Q K V : FVec Ideal ⟨3, ![72, 32, 4096]⟩ .f32)
    (i : (⟨3, ![1, 32, 4096]⟩ : Shape).Idx) (I : (⟨3, ![72, 32, 4096]⟩ : Shape).Idx) (h1 : i 1 = I 1) (h2 : i 2 = I 2)
    (hq : ∀ (e : Fin 32) (n : Fin 4096), q (ix3 (0 : Fin 1) e n) = Q (ix3 (I 0) e n))
    (hk : ∀ (e : Fin 32) (n : Fin 4096), k (ix3 (0 : Fin 1) e n) = K (ix3 (I 0) e n))
    (hv : ∀ (e : Fin 32) (n : Fin 4096), v (ix3 (0 : Fin 1) e n) = V (ix3 (I 0) e n)) :
    attnBlock q k v i = attn3 Q K V I := by
  unfold attnBlock attn3
  rw [h1, h2]
  simp only [hq, hk, hv]

/-- A [2, 36, 32, 4096] array re-read row-major as [72, 32, 4096]: head `T = 36 b + h` holds what `(b, h)` held. -/
theorem flatten_apply (X : FVec Ideal ⟨4, ![2, 36, 32, 4096]⟩ .f32)
    (hc : (⟨4, ![2, 36, 32, 4096]⟩ : Shape).ShapeCasts ⟨3, ![72, 32, 4096]⟩)
    (b : Fin 2) (h : Fin 36) (T : Fin 72) (hT : T.val = b.val * 36 + h.val) (e : Fin 32) (n : Fin 4096) :
    shapeCast ⟨3, ![72, 32, 4096]⟩ X hc (ix3 T e n) = X (ix4 b h e n) :=
  shapeCast_apply X hc _ _ (by
    rw [Shape.rowMajor_val_four, Shape.rowMajor_val_three]
    show ((b.val * 36 + h.val) * 32 + e.val) * 4096 + n.val = (T.val * 32 + e.val) * 4096 + n.val
    rw [hT])

/-- And back: a [72, 32, 4096] array re-read as [2, 36, 32, 4096] holds at `(b, h)` what head `36 b + h` held. -/
theorem unflatten_apply (X : FVec Ideal ⟨3, ![72, 32, 4096]⟩ .f32)
    (hc : (⟨3, ![72, 32, 4096]⟩ : Shape).ShapeCasts ⟨4, ![2, 36, 32, 4096]⟩)
    (b : Fin 2) (h : Fin 36) (T : Fin 72) (hT : T.val = b.val * 36 + h.val) (d : Fin 32) (n : Fin 4096) :
    shapeCast ⟨4, ![2, 36, 32, 4096]⟩ X hc (ix4 b h d n) = X (ix3 T d n) :=
  shapeCast_apply X hc _ _ (by
    rw [Shape.rowMajor_val_four, Shape.rowMajor_val_three]
    show (T.val * 32 + d.val) * 4096 + n.val = ((b.val * 36 + h.val) * 32 + d.val) * 4096 + n.val
    rw [hT])

/-- The 72-head result of the flattened arrays, re-read as [2, 36, 32, 4096], is `attn4` of the arrays. -/
theorem unflatten_attn3 (Q K V : FVec Ideal ⟨4, ![2, 36, 32, 4096]⟩ .f32)
    (hc : (⟨4, ![2, 36, 32, 4096]⟩ : Shape).ShapeCasts ⟨3, ![72, 32, 4096]⟩)
    (hc' : (⟨3, ![72, 32, 4096]⟩ : Shape).ShapeCasts ⟨4, ![2, 36, 32, 4096]⟩) :
    shapeCast ⟨4, ![2, 36, 32, 4096]⟩
        (attn3 (shapeCast ⟨3, ![72, 32, 4096]⟩ Q hc) (shapeCast ⟨3, ![72, 32, 4096]⟩ K hc) (shapeCast ⟨3, ![72, 32, 4096]⟩ V hc)) hc'
      = attn4 Q K V := by
  funext i
  obtain ⟨b, h, d, n, rfl⟩ : ∃ (b : Fin 2) (h : Fin 36) (d : Fin 32) (n : Fin 4096), i = ix4 b h d n :=
    ⟨i 0, i 1, i 2, i 3, eq_ix4 i⟩
  have hlt : b.val * 36 + h.val < 72 := by have := b.isLt; have := h.isLt; omega
  rw [unflatten_apply _ hc' b h ⟨b.val * 36 + h.val, hlt⟩ rfl d n]
  unfold attn3 attn4
  simp only [flatten_apply _ hc b h ⟨b.val * 36 + h.val, hlt⟩ rfl]

end Cert.LinAttn

end
-- ==== Proof.KernelValue.lean ====
/-
  The kernel's run, read: the result array ends holding `attn4` of the three arguments.

  The program re-reads each argument [2, 36, 32, 4096] row-major as 72 heads [72, 32, 4096], runs the body once per
  head on that head's three [1, 32, 4096] blocks, writes each head's [1, 32, 4096] result block back, and re-reads the
  [72, 32, 4096] result as [2, 36, 32, 4096]. Grid point `t` reads and writes block `(t, 0, 0)` of every array, so
  the 72 written blocks tile the result array, and what point `t` writes is head `t` of `attn3` of the three
  flattened arguments (the body's payload is `attnBlock` of its blocks, and the blocks are head `t`'s rows).
-/
import proofs.«180149_j45208825758214_1_alg».proof.Proof.Gen.KernelIdeal.Frame
import proofs.«180149_j45208825758214_1_alg».proof.Proof.Payload
import proofs.«180149_j45208825758214_1_alg».proof.Proof.Reshape
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.ShloMosaic.ValueIdx Idealize.SL.Sem
open Idealize.ShloMosaic.Pipeline (Dat)

namespace Cert.LinAttn.Kernel

open Cert.KernelIdeal Cert.KernelIdeal.Gen

variable (m : (ℓ : Loc nD τ sig) → Buf (Elt Ideal) ℓ) (ρ : Dev nD → PrngReg)

theorem hz : (![0, 0, 0] : Fin 3 → Nat) = fun _ => 0 := funext fun a => by fin_cases a <;> rfl

/-- The flattened query, key and value arrays as the region finds them. -/
abbrev Q3 (c : Dev nD) : FVec Ideal S72x32x4096 .f32 := V m c main_v0
abbrev K3 (c : Dev nD) : FVec Ideal S72x32x4096 .f32 := V m c main_v1
abbrev V3 (c : Dev nD) : FVec Ideal S72x32x4096 .f32 := V m c main_v2

/-- At grid point `t` every window's block index is `(t, 0, 0)`: head `t`, all features, all tokens. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The query window's block at point `t` holds head `t`'s rows of the flattened query array. -/
theorem qblock_apply (c : Dev nD) (t : Fin cfg0.N) (x : S1x32x4096.Idx) (I : S72x32x4096.Idx)
    (h0 : (I 0).val = t.val + (x 0).val) (h1 : (I 1).val = (x 1).val) (h2 : (I 2).val = (x 2).val) :
    (iblk m c 0 t : Vec Ideal S1x32x4096 .f32) x = Q3 m c I := by
  obtain ⟨⟨e0, e1, e2⟩, -, -, -⟩ := idx_facts t
  unfold iblk
  rw [View.read_apply]
  show V m c main_v0 _ = V m c main_v0 _
  congr 1
  funext a
  apply Fin.ext
  match a with
  | ⟨0, _⟩ => show win0_0.index t 0 * 1 + 1 * (x 0).val = (I 0).val; rw [e0, h0]; omega
  | ⟨1, _⟩ => show win0_0.index t 1 * 32 + 1 * (x 1).val = (I 1).val; rw [e1, h1]; omega
  | ⟨2, _⟩ => show win0_0.index t 2 * 4096 + 1 * (x 2).val = (I 2).val; rw [e2, h2]; omega

/-- The key window's block at point `t` holds head `t`'s rows of the flattened key array. -/
theorem kblock_apply (c : Dev nD) (t : Fin cfg0.N) (x : S1x32x4096.Idx) (I : S72x32x4096.Idx)
    (h0 : (I 0).val = t.val + (x 0).val) (h1 : (I 1).val = (x 1).val) (h2 : (I 2).val = (x 2).val) :
    (iblk m c 1 t : Vec Ideal S1x32x4096 .f32) x = K3 m c I := by
  obtain ⟨-, ⟨e0, e1, e2⟩, -, -⟩ := idx_facts t
  unfold iblk
  rw [View.read_apply]
  show V m c main_v1 _ = V m c main_v1 _
  congr 1
  funext a
  apply Fin.ext
  match a with
  | ⟨0, _⟩ => show win0_1.index t 0 * 1 + 1 * (x 0).val = (I 0).val; rw [e0, h0]; omega
  | ⟨1, _⟩ => show win0_1.index t 1 * 32 + 1 * (x 1).val = (I 1).val; rw [e1, h1]; omega
  | ⟨2, _⟩ => show win0_1.index t 2 * 4096 + 1 * (x 2).val = (I 2).val; rw [e2, h2]; omega

/-- The value window's block at point `t` holds head `t`'s rows of the flattened value array. -/
theorem vblock_apply (c : Dev nD) (t : Fin cfg0.N) (x : S1x32x4096.Idx) (I : S72x32x4096.Idx)
    (h0 : (I 0).val = t.val + (x 0).val) (h1 : (I 1).val = (x 1).val) (h2 : (I 2).val = (x 2).val) :
    (iblk m c 2 t : Vec Ideal S1x32x4096 .f32) x = V3 m c I := by
  obtain ⟨-, -, ⟨e0, e1, e2⟩, -⟩ := idx_facts t
  unfold iblk
  rw [View.read_apply]
  show V m c main_v2 _ = V m c main_v2 _
  congr 1
  funext a
  apply Fin.ext
  match a with
  | ⟨0, _⟩ => show win0_2.index t 0 * 1 + 1 * (x 0).val = (I 0).val; rw [e0, h0]; omega
  | ⟨1, _⟩ => show win0_2.index t 1 * 32 + 1 * (x 1).val = (I 1).val; rw [e1, h1]; omega
  | ⟨2, _⟩ => show win0_2.index t 2 * 4096 + 1 * (x 2).val = (I 2).val; rw [e2, h2]; omega

/-- What point `t` writes back is block `t` of `attn3` of the flattened arrays. -/
theorem flushed_eq (c : Dev nD) (t : Fin cfg0.N) :
    (dats m 0 c).flushed 3 t = ((cfg0.win 3).blk t).view.read (Elt Ideal) (attn3 (Q3 m c) (K3 m c) (V3 m c)) := by
  show (cfg0.win 3).cut (grid0.coords t) ((dats m 0 c).after 3 t) = _
  rw [after0_3]
  unfold out0_3
  rw [View.canon_unit_zero hz]
  simp only [View.ld_unit_zero (S := S1x32x4096) hz]
  rw [payload_eq]
  obtain ⟨-, -, -, ⟨e0, e1, e2⟩⟩ := idx_facts t
  funext j
  have hj0 : (j 0).val < 1 := (j 0).isLt
  have hj1 : (j 1).val < 32 := (j 1).isLt
  have hj2 : (j 2).val < 4096 := (j 2).isLt
  rw [View.read_apply]
  have E0 : ((((cfg0.win 3).blk t).view.emb j) 0).val = t.val := by
    show win0_3.index t 0 * 1 + 1 * (j 0).val = t.val; rw [e0]; omega
  refine attnBlock_eq_attn3_at _ _ _ _ _ _ _ _ (Fin.ext ?_) (Fin.ext ?_) (fun e n => ?_) (fun e n => ?_) (fun e n => ?_)
  · show (j 1).val = win0_3.index t 1 * 32 + 1 * (j 1).val; rw [e1]; omega
  · show (j 2).val = win0_3.index t 2 * 4096 + 1 * (j 2).val; rw [e2]; omega
  · exact qblock_apply m c t _ _ (by show _ = t.val + 0; rw [E0]; rfl) rfl rfl
  · exact kblock_apply m c t _ _ (by show _ = t.val + 0; rw [E0]; rfl) rfl rfl
  · exact vblock_apply m c t _ _ (by show _ = t.val + 0; rw [E0]; rfl) rfl rfl

/-- An index of the result array is in point `t`'s block iff each coordinate is in the block's range on its axis. -/
theorem mem_block (t : Fin cfg0.N) (i : S72x32x4096.Idx) :
    i ∈ ((cfg0.win 3).blk t).view.set ↔ ∀ a : Fin 3, win0_3.index t a * S1x32x4096.size a ≤ (i a).val ∧ (i a).val < win0_3.index t a * S1x32x4096.size a + S1x32x4096.size a := by
  show i ∈ ((View.whole main_v3).slice (win0_3.rect t)).set ↔ _
  rw [View.set_slice_whole, Rect.mem_set_unit]
  exact Iff.rfl

/-- The 72 blocks tile the result array: index `i` lies in the block of the point whose number is `i`'s head. -/
theorem covered (i : S72x32x4096.Idx) :
    ∃ t : Fin cfg0.N, (cfg0.win 3).flush t = true ∧ i ∈ ((cfg0.win 3).blk t).view.set := by
  have hi0 : (i 0).val < 72 := (i 0).isLt
  have hi1 : (i 1).val < 32 := (i 1).isLt
  have hi2 : (i 2).val < 4096 := (i 2).isLt
  have hN : cfg0.N = 72 := N_0
  obtain ⟨T, hT⟩ : ∃ T : Fin cfg0.N, T.val = (i 0).val := ⟨⟨(i 0).val, by rw [hN]; exact hi0⟩, rfl⟩
  refine ⟨T, flush0_3 T, ?_⟩
  rw [mem_block]
  obtain ⟨-, -, -, ⟨e0, e1, e2⟩⟩ := idx_facts T
  intro a
  match a with
  | ⟨0, _⟩ => show win0_3.index T 0 * 1 ≤ (i 0).val ∧ (i 0).val < win0_3.index T 0 * 1 + 1; rw [e0]; omega
  | ⟨1, _⟩ => show win0_3.index T 1 * 32 ≤ (i 1).val ∧ (i 1).val < win0_3.index T 1 * 32 + 32; rw [e1]; omega
  | ⟨2, _⟩ => show win0_3.index T 2 * 4096 ≤ (i 2).val ∧ (i 2).val < win0_3.index T 2 * 4096 + 4096; rw [e2]; omega

/-- So after the region the [72, 32, 4096] result array holds `attn3` of the flattened arguments. -/
theorem region_result (c : Dev nD) : (dats m 0 c).arrAt 3 cfg0.N = attn3 (Q3 m c) (K3 m c) (V3 m c) :=
  (dats m 0 c).arrAt_eq_of_cover 3 (attn3 (Q3 m c) (K3 m c) (V3 m c)) (fun t _ => flushed_eq m c t) covered

/-- The flattened query array is the query argument re-read row-major as 72 heads. -/
theorem Q3_eq (c : Dev nD) :
    Q3 m c = shapeCast S72x32x4096 (m ((c : Thread nD τ).loc main_arg0)) shapeCasts_S2x36x32x4096_S72x32x4096 := by
  show StableHlo.after hostOps0 (fun b => m (c, b)) (Proc.devRef .tc main_v0) = _
  after_results
  rfl
/-- The flattened key array is the key argument re-read row-major as 72 heads. -/
theorem K3_eq (c : Dev nD) :
    K3 m c = shapeCast S72x32x4096 (m ((c : Thread nD τ).loc main_arg1)) shapeCasts_S2x36x32x4096_S72x32x4096 := by
  show StableHlo.after hostOps0 (fun b => m (c, b)) (Proc.devRef .tc main_v1) = _
  after_results
  rfl
/-- The flattened value array is the value argument re-read row-major as 72 heads. -/
theorem V3_eq (c : Dev nD) :
    V3 m c = shapeCast S72x32x4096 (m ((c : Thread nD τ).loc main_arg2)) shapeCasts_S2x36x32x4096_S72x32x4096 := by
  show StableHlo.after hostOps0 (fun b => m (c, b)) (Proc.devRef .tc main_v2) = _
  after_results
  rfl

/-- The line after the region re-reads the [72, 32, 4096] result array as [2, 36, 32, 4096]. -/
theorem tail_eq (c : Dev nD) :
    Pipeline.afterTail₀ cfgs (dats m) 0 (V0 m) [hostOps1] c main_v4
      = shapeCast S2x36x32x4096 ((dats m 0 c).arrAt 3 cfg0.N) shapeCasts_S72x32x4096_S2x36x32x4096 := by
  unfold Pipeline.afterTail₀
  show StableHlo.after hostOps1 _ (Proc.devRef .tc main_v4) = _
  after_results
  refine funext fun i => ?_
  show shapeCast S2x36x32x4096 (Pipeline.withArrays spec0 c (V0 m c) (fun w => (dats m 0 c).arrAt w cfg0.N)
      (Proc.devRef .tc (Pipeline.arrRef spec0 3))) shapeCasts_S72x32x4096_S2x36x32x4096 i = _
  rw [Pipeline.withArrays_arr spec0 launch0.win.arr_inj c _ _ 3]

/-- The re-read result is `attn4` of the three arguments: head `36 b + h` of the flattened arrays is `(b, h)`. -/
theorem result_eq (c : Dev nD) :
    shapeCast S2x36x32x4096 ((dats m 0 c).arrAt 3 cfg0.N) shapeCasts_S72x32x4096_S2x36x32x4096
      = attn4 (m ((c : Thread nD τ).loc main_arg0)) (m ((c : Thread nD τ).loc main_arg1)) (m ((c : Thread nD τ).loc main_arg2)) := by
  rw [region_result, Q3_eq, K3_eq, V3_eq]
  exact unflatten_attn3 _ _ _ _ _

/-- The run, read: every weakly fair execution ends with the result array at `attn4` of the arguments as launched,
    and the arguments unchanged. -/
theorem run : θ_run defs (onTc (τ := τ) (main (F := Ideal))) ⟨m, fun _ => 0, ρ⟩ fun r => ∀ c : Dev nD,
      r.2.mem ((c.tc : Thread nD τ).loc main_v4)
        = attn4 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans ((tail_eq m c).trans (result_eq m c)),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.LinAttn.Kernel

end
-- ==== Proof.lean ====
/-
  Linear attention with a running normaliser, kernel against reference, over the extended reals.

  Both programs compute, for every head `(b, h)`, feature `d` and token `n`,
    out = (∑ e, (∑ n', V[d, n'] · K[e, n']) · Q[e, n]) / ((∑ e, (∑ n', K[e, n']) · Q[e, n]) + ε).
  The kernel does so head by head on [1, 32, 4096] blocks of the arguments flattened to 72 heads, forming the key row
  sums itself; the reference appends a row of ones to the values, so that the same two products carry the normaliser
  in a 33rd row, and divides the first 32 rows by it. The two agree term by term once `1 · x = x` is used in the row
  of ones: no sum is reordered and nothing is cancelled, so finiteness of the inputs is never used.

  Spec.lean states the function (`head`, and its three layouts), RefValue.lean reads the reference as it, KernelOps.lean
  and Payload.lean read the kernel body as it for one head, Reshape.lean relates the layouts, KernelValue.lean carries
  the body's result through the 72 blocks and the two re-readings of the arrays. The frames are the generated ones; the
  idealisation rewrote nothing, so `preserves` is trivial.
-/
import proofs.«180149_j45208825758214_1_alg».proof.Defs
import proofs.«180149_j45208825758214_1_alg».proof.Proof.Gen.Kernel
import proofs.«180149_j45208825758214_1_alg».proof.Proof.Gen.Kernel.Skeleton
import proofs.«180149_j45208825758214_1_alg».proof.Proof.Gen.Kernel.Launch
import proofs.«180149_j45208825758214_1_alg».proof.Proof.Gen.Kernel.Points
import proofs.«180149_j45208825758214_1_alg».proof.Proof.Gen.Kernel.Frame
import proofs.«180149_j45208825758214_1_alg».proof.Proof.Gen.KernelIdeal
import proofs.«180149_j45208825758214_1_alg».proof.Proof.Gen.KernelIdeal.Skeleton
import proofs.«180149_j45208825758214_1_alg».proof.Proof.Gen.KernelIdeal.Launch
import proofs.«180149_j45208825758214_1_alg».proof.Proof.Gen.KernelIdeal.Points
import proofs.«180149_j45208825758214_1_alg».proof.Proof.Gen.KernelIdeal.Frame
import proofs.«180149_j45208825758214_1_alg».proof.Proof.Gen.ReferenceIdeal
import proofs.«180149_j45208825758214_1_alg».proof.Proof.Gen.Pre_finite_inputs
import proofs.«180149_j45208825758214_1_alg».proof.Proof.Gen.ReferenceIdeal.Run
import proofs.«180149_j45208825758214_1_alg».proof.Proof.Gen.ReferenceIdeal.Read
import proofs.«180149_j45208825758214_1_alg».proof.Proof.RefValue
import proofs.«180149_j45208825758214_1_alg».proof.Proof.KernelValue
import Idealize.ShloMosaic.Adequacy
import Idealize.ShloMosaic.Init

noncomputable section

namespace Cert.Proof

open Idealize.ShloMosaic Idealize.SL.Sem Cert.Kernel

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference is host operations only: its generated run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result array at `attn4` of the arguments: the kernel's by the 72 blocks, the reference's
    by its padded products; the arguments agree, so the results do. -/
theorem algebraic : Cert.algebraic_KernelIdeal_ReferenceIdeal := by
  intro m ρ m' ρ' _ hagree
  refine ⟨_, Cert.LinAttn.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.LinAttn.Ref.result_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
